-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768 : Shape := ⟨2, ![32, 768]⟩
abbrev S768x100000 : Shape := ⟨2, ![768, 100000]⟩
abbrev S100000 : Shape := ⟨1, ![100000]⟩
abbrev S_ : Shape := ⟨0, ![]⟩

class Facts : Prop where
  bcast_S_S32x768 : S_.BroadcastsInDim S32x768 (![] : Fin 0 → Fin S32x768.rank)
  reducesTo_S32x768_S_d0_1 : S32x768.ReducesTo [0, 1] S_
  h_S_ : 0 < S_.numel
  bcast_S_S768x100000 : S_.BroadcastsInDim S768x100000 (![] : Fin 0 → Fin S768x100000.rank)
  reducesTo_S768x100000_S_d0_1 : S768x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : FVec F S32x768 .f32) (main_arg1 : FVec F S768x100000 .f32) (main_arg2 : FVec F S100000 .f32) (main_arg3 : FVec F S100000 .f32) : IVec S_ 1 :=
  let main_v0 : FVec F S32x768 .f32 := Host.absf main_arg0
  let main_cst : FVec F S_ .f32 := constant S_ .f32 0x7F800000#32
  let main_v1 : FVec F S32x768 .f32 := broadcastInDim S32x768 ![] bcast_S_S32x768 main_cst
  let main_v2 : IVec S32x768 1 := cmpf .olt main_v0 main_v1
  let main_c : IVec S_ 1 := constantI S_ 1 1#1
  let main_v3 : IVec S_ 1 := (fun x v => Host.reduce IntOp.andi x v reducesTo_S32x768_S_d0_1 h_S_) main_v2 main_c
  let main_v4 : FVec F S768x100000 .f32 := Host.absf main_arg1
  let main_cst_0 : FVec F S_ .f32 := constant S_ .f32 0x7F800000#32
  let main_v5 : FVec F S768x100000 .f32 := broadcastInDim S768x100000 ![] bcast_S_S768x100000 main_cst_0
  let main_v6 : IVec S768x100000 1 := cmpf .olt main_v4 main_v5
  let main_c_1 : IVec S_ 1 := constantI S_ 1 1#1
  let main_v7 : IVec S_ 1 := (fun x v => Host.reduce IntOp.andi x v reducesTo_S768x100000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S32x768 : Shape := ⟨2, ![32, 768]⟩
abbrev S768x100000 : Shape := ⟨2, ![768, 100000]⟩
abbrev S100000 : Shape := ⟨1, ![100000]⟩
abbrev S100000x768 : Shape := ⟨2, ![100000, 768]⟩
abbrev S1x100000 : Shape := ⟨2, ![1, 100000]⟩
abbrev S32x100000 : Shape := ⟨2, ![32, 100000]⟩
abbrev S4096x768 : Shape := ⟨2, ![4096, 768]⟩
abbrev S1x4096 : Shape := ⟨2, ![1, 4096]⟩
abbrev S32x4096 : Shape := ⟨2, ![32, 4096]⟩

abbrev nBuf : Space → Nat
  | .hbm => 8
  | .vmem => 9
  | .smem => 0
  | _ => 0

abbrev bufTy : (tb : Table) → Fin (tcTables nBuf tb) → BufTy
  | .hbm, ⟨0, _⟩ => ⟨S32x768, .f32⟩
  | .hbm, ⟨1, _⟩ => ⟨S768x100000, .f32⟩
  | .hbm, ⟨2, _⟩ => ⟨S100000, .f32⟩
  | .hbm, ⟨3, _⟩ => ⟨S100000, .f32⟩
  | .hbm, ⟨4, _⟩ => ⟨S100000x768, .f32⟩
  | .hbm, ⟨5, _⟩ => ⟨S1x100000, .f32⟩
  | .hbm, ⟨6, _⟩ => ⟨S1x100000, .f32⟩
  | .hbm, ⟨7, _⟩ => ⟨S32x100000, .f32⟩
  | .local _ .vmem, ⟨0, _⟩ => ⟨S32x768, .f32⟩
  | .local _ .vmem, ⟨1, _⟩ => ⟨S4096x768, .f32⟩
  | .local _ .vmem, ⟨2, _⟩ => ⟨S4096x768, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S32x4096, .f32⟩
  | .local _ .vmem, ⟨8, _⟩ => ⟨S32x4096, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S768x100000_S100000x768_1_0 : S768x100000.Transposes [1, 0] S100000x768
  shapeCasts_S100000_S1x100000 : S100000.ShapeCasts S1x100000
  inb_S32x768_S32x768_0_0 : ∀ a, (![0, 0] : Fin 2 → Nat) a + S32x768.size a ≤ S32x768.size a
  h_S32x768 : 0 < S32x768.numel
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S32x4096 : S1x4096.Broadcasts S32x4096
  inb_S32x4096_S32x4096_0_0 : ∀ a, (![0, 0] : Fin 2 → Nat) a + S32x4096.size a ≤ S32x4096.size a
  h_S32x4096 : 0 < S32x4096.numel
  dot_S32x768_S4096x768_S32x4096_1_1_0_0_n_n_wf : DotDims.WF S32x768 S4096x768 S32x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x768.size a ≤ S32x768.size a
  hwx0_0 : ∀ i : grid0.Coords, EltTy.bits .f32 = 32 ∨ (Rect.block (s := S32x768) S32x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x768.size a < S100000x768.size a
  hwx0_1 : ∀ i : grid0.Coords, EltTy.bits .f32 = 32 ∨ (Rect.unit (s := S100000x768) (fun a => cc0_transform_1 i a * S4096x768.size a) (fun a => (Pipeline.Clip.of (cc0_transform_1 i a) (S4096x768.size a) (S100000x768.size a)).extent (S4096x768.size a)) fun a => Pipeline.Clip.inb (Pipeline.Clip.ok_of (hstart0_1 i a))).WholeWords (EltTy.packing .f32)
  hwxs0_1 : ∀ i : grid0.Coords, EltTy.bits .f32 = 32 ∨ (Rect.unit (s := S4096x768) (fun _ => 0) (fun a => (Pipeline.Clip.of (cc0_transform_1 i a) (S4096x768.size a) (S100000x768.size a)).extent (S4096x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x4096.size a < S1x100000.size a
  hwx0_2 : ∀ i : grid0.Coords, EltTy.bits .f32 = 32 ∨ (Rect.unit (s := S1x100000) (fun a => cc0_transform_2 i a * S1x4096.size a) (fun a => (Pipeline.Clip.of (cc0_transform_2 i a) (S1x4096.size a) (S1x100000.size a)).extent (S1x4096.size a)) fun a => Pipeline.Clip.inb (Pipeline.Clip.ok_of (hstart0_2 i a))).WholeWords (EltTy.packing .f32)
  hwxs0_2 : ∀ i : grid0.Coords, EltTy.bits .f32 = 32 ∨ (Rect.unit (s := S1x4096) (fun _ => 0) (fun a => (Pipeline.Clip.of (cc0_transform_2 i a) (S1x4096.size a) (S1x100000.size a)).extent (S1x4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x4096.size a < S1x100000.size a
  hwx0_3 : ∀ i : grid0.Coords, EltTy.bits .f32 = 32 ∨ (Rect.unit (s := S1x100000) (fun a => cc0_transform_3 i a * S1x4096.size a) (fun a => (Pipeline.Clip.of (cc0_transform_3 i a) (S1x4096.size a) (S1x100000.size a)).extent (S1x4096.size a)) fun a => Pipeline.Clip.inb (Pipeline.Clip.ok_of (hstart0_3 i a))).WholeWords (EltTy.packing .f32)
  hwxs0_3 : ∀ i : grid0.Coords, EltTy.bits .f32 = 32 ∨ (Rect.unit (s := S1x4096) (fun _ => 0) (fun a => (Pipeline.Clip.of (cc0_transform_3 i a) (S1x4096.size a) (S1x100000.size a)).extent (S1x4096.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32x4096.size a < S32x100000.size a
  hwx0_4 : ∀ i : grid0.Coords, EltTy.bits .f32 = 32 ∨ (Rect.unit (s := S32x100000) (fun a => cc0_transform_4 i a * S32x4096.size a) (fun a => (Pipeline.Clip.of (cc0_transform_4 i a) (S32x4096.size a) (S32x100000.size a)).extent (S32x4096.size a)) fun a => Pipeline.Clip.inb (Pipeline.Clip.ok_of (hstart0_4 i a))).WholeWords (EltTy.packing .f32)
  hwxs0_4 : ∀ i : grid0.Coords, EltTy.bits .f32 = 32 ∨ (Rect.unit (s := S32x4096) (fun _ => 0) (fun a => (Pipeline.Clip.of (cc0_transform_4 i a) (S32x4096.size a) (S32x100000.size a)).extent (S32x4096.size a)) fun a => (Nat.zero_add _).trans_le (Pipeline.Clip.extent_le (Pipeline.Clip.ok_of (hstart0_4 i a)))).WholeWords (EltTy.packing .f32)

variable [Facts₀]

def dot_S32x768_S4096x768_S32x4096_1_1_0_0_n_n : DotDims S32x768 S4096x768 S32x4096 where
  lhsContracting := [1]
  rhsContracting := [1]
  lhsNonContracting := [0]
  rhsNonContracting := [0]
  lhsBatch := []
  rhsBatch := []
  wf := dot_S32x768_S4096x768_S32x4096_1_1_0_0_n_n_wf

abbrev win0_0 : Pipeline.Window sig grid0 :=
  Pipeline.Window.ofSpec (Memref.whole main_arg0) S32x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S4096x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1x4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S1x4096.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v3) S32x4096.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x768 : Shape := ⟨2, ![32, 768]⟩
abbrev S768x100000 : Shape := ⟨2, ![768, 100000]⟩
abbrev S100000 : Shape := ⟨1, ![100000]⟩
abbrev S32x100000 : Shape := ⟨2, ![32, 100000]⟩
abbrev S1x100000 : Shape := ⟨2, ![1, 100000]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S768x100000, .f32⟩
  | .hbm, ⟨2, _⟩ => ⟨S100000, .f32⟩
  | .hbm, ⟨3, _⟩ => ⟨S100000, .f32⟩
  | .hbm, ⟨4, _⟩ => ⟨S32x100000, .f32⟩
  | .hbm, ⟨5, _⟩ => ⟨S1x100000, .f32⟩
  | .hbm, ⟨6, _⟩ => ⟨S32x100000, .f32⟩
  | .hbm, ⟨7, _⟩ => ⟨S32x100000, .f32⟩
  | .hbm, ⟨8, _⟩ => ⟨S1x100000, .f32⟩
  | .hbm, ⟨9, _⟩ => ⟨S_, .f32⟩
  | .hbm, ⟨10, _⟩ => ⟨S1x100000, .f32⟩
  | .hbm, ⟨11, _⟩ => ⟨S1x100000, .f32⟩
  | .hbm, ⟨12, _⟩ => ⟨S_, .f32⟩
  | .hbm, ⟨13, _⟩ => ⟨S1x100000, .f32⟩
  | .hbm, ⟨14, _⟩ => ⟨S1x100000, .f32⟩
  | .hbm, ⟨15, _⟩ => ⟨S_, .f32⟩
  | .hbm, ⟨16, _⟩ => ⟨S1x100000, .f32⟩
  | .hbm, ⟨17, _⟩ => ⟨S1x100000, .f32⟩
  | .hbm, ⟨18, _⟩ => ⟨S1x100000, .f32⟩
  | .hbm, ⟨19, _⟩ => ⟨S32x100000, .f32⟩
  | .hbm, ⟨20, _⟩ => ⟨S32x100000, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  bcast_S1x100000_S32x100000_0_1 : S1x100000.BroadcastsInDim S32x100000 (![0, 1] : Fin 2 → Fin S32x100000.rank)
  shapeCasts_S100000_S1x100000 : S100000.ShapeCasts S1x100000
  bcast_S_S1x100000 : S_.BroadcastsInDim S1x100000 (![] : Fin 0 → Fin S1x100000.rank)
  dot_S32x768_S768x100000_S32x100000_1_0_0_1_n_n_wf : DotDims.WF S32x768 S768x100000 S32x100000 [1] [0] [0] [1] [] []

variable [Facts₀]

def dot_S32x768_S768x100000_S32x100000_1_0_0_1_n_n : DotDims S32x768 S768x100000 S32x100000 where
  lhsContracting := [1]
  rhsContracting := [0]
  lhsNonContracting := [0]
  rhsNonContracting := [1]
  lhsBatch := []
  rhsBatch := []
  wf := dot_S32x768_S768x100000_S32x100000_1_0_0_1_n_n_wf

class Facts : Prop extends Facts₀ where

variable [Facts]
-- ==== Proof.KernelBody.lean ====
/-
  The kernel body of the word-level program as a Hoare triple over its five staging buffers.

  One grid point: the body loads the whole `hidden` buffer [32, 768], the whole transposed-weight block
  [4096, 768], the bias block and the mask block [1, 4096], forms
      acc + bias + (1 − mask) · c,   acc = hidden · blockᵀ,
  and stores it over the whole result buffer [32, 4096] (after a load of that buffer whose value nothing uses).
  So whatever the five buffers hold, the four inputs are left as they were and the result buffer ends at the
  body's one payload applied to the inputs' contents. Nothing here depends on the float instance.
-/
import proofs.«124533_g78194174591064_cont_9to1_m_1273_11_alg».proof.Proof.Gen.Kernel.Frame
import proofs.«124533_g78194174591064_cont_9to1_m_1273_11_alg».proof.Proof.Gen.Kernel.Skeleton
import Idealize.ShloMosaic.Lib.Pipeline.FrameBody
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each is its whole buffer -/

abbrev rHid : Rect S32x768 := Rect.unit (s := S32x768) ![0, 0] S32x768.size inb_S32x768_S32x768_0_0
abbrev rWt : Rect S4096x768 := Rect.unit (s := S4096x768) ![0, 0] S4096x768.size inb_S4096x768_S4096x768_0_0
abbrev rVec : Rect S1x4096 := Rect.unit (s := S1x4096) ![0, 0] S1x4096.size inb_S1x4096_S1x4096_0_0
abbrev rOut : Rect S32x4096 := Rect.unit (s := S32x4096) ![0, 0] S32x4096.size inb_S32x4096_S32x4096_0_0

/-- The offsets of every access: the origin. -/
theorem origin2 : (![0, 0] : Fin 2 → Nat) = fun _ => 0 := funext fun a => by
  match a with
  | ⟨0, _⟩ => rfl
  | ⟨1, _⟩ => rfl

/-- What the result buffer holds after the body, from what the four input buffers hold: its one store. -/
def outBuf (x0 : Vec F S32x768 .f32) (x1 : Vec F S4096x768 .f32) (x2 x3 : Vec F S1x4096 .f32) : Vec F S32x4096 .f32 :=
  View.canon [⟨rOut, k0_pay1 (View.ld x0 rHid) (View.ld x1 rWt) (View.ld x2 rVec) (View.ld x3 rVec)⟩]

/-- The store's rectangle is the whole buffer, so it covers every index. -/
theorem out_cover (p0 : Vec F S32x4096 .f32) (y : S32x4096.Idx) :
    ∃ pc ∈ ([⟨rOut, p0⟩] : List (View.Piece (Elt F) S32x4096 .f32)), y ∈ pc.1.set :=
  ⟨⟨rOut, p0⟩, List.mem_singleton_self _, View.mem_set_unit_zero origin2 inb_S32x4096_S32x4096_0_0 y⟩

/-- The store being whole and the loads whole, the result buffer is the payload of the inputs' contents. -/
theorem outBuf_eq (x0 : Vec F S32x768 .f32) (x1 : Vec F S4096x768 .f32) (x2 x3 : Vec F S1x4096 .f32) :
    outBuf x0 x1 x2 x3 = k0_pay1 x0 x1 x2 x3 := by
  unfold outBuf
  rw [View.canon_unit_zero (S := S32x4096) origin2]
  simp only [View.ld_unit_zero (S := S32x768) origin2, View.ld_unit_zero (S := S4096x768) origin2,
    View.ld_unit_zero (S := S1x4096) origin2]

/-! ## The triple -/

set_option maxHeartbeats 1000000 in
/-- On whole staging memrefs, the inputs' at contents `x0 … x3` and the result's at anything, the body runs to
    the continuation holding the inputs' as they were and the result's at `outBuf` of them. -/
theorem sound_kernel (c : Dev nD) (E : Set ℕ) (i : grid0.Coords)
    (arg1 : Memref sig .tc .vmem S32x768 .f32) (harg1 : arg1.IsWhole) (arg2 : Memref sig .tc .vmem S4096x768 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S32x4096 .f32) (harg5 : arg5.IsWhole)
    (x0 : Vec F S32x768 .f32) (x1 : Vec F S4096x768 .f32) (x2 x3 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBuf x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out_cover _)

end Cert.Kernel.Body

end
-- ==== Proof.KernelFrame.lean ====
/-
  The frame of the word-level kernel: it runs to the end, faults nowhere, and leaves its four arguments as launched.

  Only `hidden` is an argument the pipeline stages (its one block is the whole array, fetched once and kept); the
  weights, the bias and the mask reach the pipeline as a transpose and two reshapes written by main itself, so the
  arguments `W`, `b` and `mask` are never touched by the region. For the frame nothing need be said of what the
  staged copies or the result buffer hold: the proof data tracks `hidden`'s buffer and forgets the other four
  windows (each is handed to the body at any contents and taken back at any contents), which is what lets the
  statement hold at the word level, where a matrix product's element is not a function of one row of its right
  operand alone.
-/
import proofs.«124533_g78194174591064_cont_9to1_m_1273_11_alg».proof.Proof.KernelBody
import Idealize.ShloMosaic.Lib.Pipeline.Frame

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose staging contents the frame does not follow: all but `hidden`'s. -/
abbrev fgt : Fin 5 → Bool := fun | 0 => false | 1 => true | 2 => true | 3 => true | 4 => true | ⟨_ + 5, h⟩ => absurd h (Nat.not_lt.2 (Nat.le_add_left _ _))

/-- A word for the contents nothing reads. -/
abbrev anyWord : Elt F .f32 := Scalar.ofBits (F := F) .f32 0#32

/-- The proof data on core `c`: the arrays as the region finds them; `hidden`'s buffer at its block after every
    point; the forgotten windows' entries are never read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => anyWord
    | ⟨2, _⟩ => fun _ => anyWord
    | ⟨3, _⟩ => fun _ => anyWord
    | ⟨4, _⟩ => fun _ => anyWord
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X))

/-- The body at any point, whatever the four forgotten buffers hold: `hidden`'s buffer is left at its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl, after0_0]
  iintro ⟨HΦ, Ho, ⟨%d0, H0⟩, ⟨%X1, H1⟩, ⟨%X2, H2⟩, ⟨%X3, H3⟩, ⟨%X4, H4⟩⟩
  rw [before0_0 m c t d0]
  iapply (sound_kernel (F := F) c Set.univ (grid0.coords t) _ _ _ _ _ _ _ _ _ _ (iblk m c 0 t) X1 X2 X3 _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists _; iexact H1
  isplitl [H2]; · iexists _; iexact H2
  isplitl [H3]; · iexists _; iexact H3
  iexists _; iexact H4

/-- The library's body obligation with the four windows forgotten, at every point. -/
theorem body_obligation (c : Dev nD) :
    BodyObligationLoose (dats m 0 c) (defs₀ (F := F)) Variants.none () Set.univ fgt := fun t => by
  rw [bigSep_W0, bigSep_W0]
  exact sound_body m c t

/-! ## The run and the frame -/

set_option backward.isDefEq.respectTransparency.types false in
/-- Every weakly fair execution of main terminates; `hidden` ends at its entry contents and every unscoped buffer
    outside the pipeline as the region found it. -/
theorem run_main : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Kernel.Run

end
-- ==== Proof.KernelIdealBody.lean ====
/-
  The kernel body of the idealized program as a Hoare triple over its five staging buffers.

  One grid point: the body loads the whole `hidden` buffer [32, 768], the whole transposed-weight block
  [4096, 768], the bias block and the mask block [1, 4096], forms
      acc + bias + (1 − mask) · c,   acc = hidden · blockᵀ,
  and stores it over the whole result buffer [32, 4096] (after a load of that buffer whose value nothing uses).
  So whatever the five buffers hold, the four inputs are left as they were and the result buffer ends at the
  body's one payload applied to the inputs' contents. Nothing here depends on the float instance.
-/
import proofs.«124533_g78194174591064_cont_9to1_m_1273_11_alg».proof.Proof.Gen.KernelIdeal.Frame
import proofs.«124533_g78194174591064_cont_9to1_m_1273_11_alg».proof.Proof.Gen.KernelIdeal.Skeleton
import Idealize.ShloMosaic.Lib.Pipeline.FrameBody
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each is its whole buffer -/

abbrev rHid : Rect S32x768 := Rect.unit (s := S32x768) ![0, 0] S32x768.size inb_S32x768_S32x768_0_0
abbrev rWt : Rect S4096x768 := Rect.unit (s := S4096x768) ![0, 0] S4096x768.size inb_S4096x768_S4096x768_0_0
abbrev rVec : Rect S1x4096 := Rect.unit (s := S1x4096) ![0, 0] S1x4096.size inb_S1x4096_S1x4096_0_0
abbrev rOut : Rect S32x4096 := Rect.unit (s := S32x4096) ![0, 0] S32x4096.size inb_S32x4096_S32x4096_0_0

/-- The offsets of every access: the origin. -/
theorem origin2 : (![0, 0] : Fin 2 → Nat) = fun _ => 0 := funext fun a => by
  match a with
  | ⟨0, _⟩ => rfl
  | ⟨1, _⟩ => rfl

/-- What the result buffer holds after the body, from what the four input buffers hold: its one store. -/
def outBuf (x0 : Vec F S32x768 .f32) (x1 : Vec F S4096x768 .f32) (x2 x3 : Vec F S1x4096 .f32) : Vec F S32x4096 .f32 :=
  View.canon [⟨rOut, k0_pay1 (View.ld x0 rHid) (View.ld x1 rWt) (View.ld x2 rVec) (View.ld x3 rVec)⟩]

/-- The store's rectangle is the whole buffer, so it covers every index. -/
theorem out_cover (p0 : Vec F S32x4096 .f32) (y : S32x4096.Idx) :
    ∃ pc ∈ ([⟨rOut, p0⟩] : List (View.Piece (Elt F) S32x4096 .f32)), y ∈ pc.1.set :=
  ⟨⟨rOut, p0⟩, List.mem_singleton_self _, View.mem_set_unit_zero origin2 inb_S32x4096_S32x4096_0_0 y⟩

/-- The store being whole and the loads whole, the result buffer is the payload of the inputs' contents. -/
theorem outBuf_eq (x0 : Vec F S32x768 .f32) (x1 : Vec F S4096x768 .f32) (x2 x3 : Vec F S1x4096 .f32) :
    outBuf x0 x1 x2 x3 = k0_pay1 x0 x1 x2 x3 := by
  unfold outBuf
  rw [View.canon_unit_zero (S := S32x4096) origin2]
  simp only [View.ld_unit_zero (S := S32x768) origin2, View.ld_unit_zero (S := S4096x768) origin2,
    View.ld_unit_zero (S := S1x4096) origin2]

/-! ## The triple -/

set_option maxHeartbeats 1000000 in
/-- On whole staging memrefs, the inputs' at contents `x0 … x3` and the result's at anything, the body runs to
    the continuation holding the inputs' as they were and the result's at `outBuf` of them. -/
theorem sound_kernel (c : Dev nD) (E : Set ℕ) (i : grid0.Coords)
    (arg1 : Memref sig .tc .vmem S32x768 .f32) (harg1 : arg1.IsWhole) (arg2 : Memref sig .tc .vmem S4096x768 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S32x4096 .f32) (harg5 : arg5.IsWhole)
    (x0 : Vec F S32x768 .f32) (x1 : Vec F S4096x768 .f32) (x2 x3 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBuf x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out_cover _)

end Cert.KernelIdeal.Body

end
-- ==== Proof.Spec.lean ====
/-
  The function both programs compute, stated once over the four argument arrays as extended reals.

  For a batch row `r` and a vocabulary column `v`,
      filtered r v = (∑ k, hidden r k · W k v) + b v + (1 − mask v) · c,
  with `1` and `c` the two float constants of the programs kept as their binary words (the same words on both
  sides: never evaluated). The kernel tiles the vocabulary axis in blocks of 4096 columns and multiplies `hidden`
  with the transposed weight block; the reference multiplies by the whole matrix and adds `mask · 0` to the
  masking term. Over the extended reals `x · 0 = 0` for every `x` and `0 + y = y`, so that extra term vanishes
  with no finiteness needed (`mask_term`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The constant `1.0` as both programs spell it. -/
abbrev one : EReal := Ideal.ofBits .f32 0x3F800000#32
/-- The masking constant `-1e9` as both programs spell it. -/
abbrev negBig : EReal := Ideal.ofBits .f32 0xCE6E6B28#32

/-- The filtered logits at row `i 0` and column `i 1`: the product row, the bias, the masking term. -/
def filtered (h : (⟨2, ![32, 768]⟩ : Shape).Idx → EReal) (W : (⟨2, ![768, 100000]⟩ : Shape).Idx → EReal)
    (b mk : (⟨1, ![100000]⟩ : Shape).Idx → EReal) : (⟨2, ![32, 100000]⟩ : Shape).Idx → EReal :=
  fun i => ((∑ k : Fin 768, h (ix2 (i 0) k) * W (ix2 k (i 1))) + b (ix1 (i 1))) + (one - mk (ix1 (i 1))) * negBig

/-- The reference's masking term `mask · 0 + (1 − mask) · c` is `(1 − mask) · c`: a product with `0` is `0`
    on the extended reals, whatever the other factor. -/
theorem mask_term (x y : EReal) : x * (Ideal.ofBits .f32 0x00000000#32) + y = y := by
  rw [Ideal.ofBits_zero_f32, mul_zero, zero_add]

end Cert.Spec

end
-- ==== Proof.PayValue.lean ====
import proofs.«124533_g78194174591064_cont_9to1_m_1273_11_alg».proof.Proof.Gen.KernelIdeal.Skeleton
import proofs.«124533_g78194174591064_cont_9to1_m_1273_11_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

/-!
  The kernel body's arithmetic read at one element.

  The body multiplies the loaded row block `x0` (32 × 768) with the loaded weight block `x1` (4096 × 768),
  contracting the second axis of both, adds the bias row `x2` (1 × 4096) broadcast down the 32 rows, and adds the
  masking row `(1 − x3) · c` broadcast the same way. At row `p` and column `q` this is
      (∑ k, x0 p k · x1 q k) + x2 0 q + (1 − x3 0 q) · c.
-/

noncomputable section

namespace Cert.KernelIdeal.PayValue

open Idealize.ShloMosaic Idealize.ShloMosaic.ValueIdx Cert.KernelIdeal Cert.KernelIdeal.Gen

/-! ## The operand indices of the contraction

  The product keeps axis 0 of each operand (the output's row is the left operand's row, the output's column is the
  right operand's row) and contracts axis 1 of each. -/

/-- The left operand's row is the output's row. -/
theorem lhs_axis_0 (i : S32x4096.Idx) (q : dot_S32x768_S4096x768_S32x4096_1_1_0_0_n_n.contr.Idx) :
    (dot_S32x768_S4096x768_S32x4096_1_1_0_0_n_n.lhsIdx i q 0).val = (i 0).val := by
  unfold DotDims.lhsIdx
  rw [dif_neg (show ¬(0 : Fin S32x768.rank) ∈ dot_S32x768_S4096x768_S32x4096_1_1_0_0_n_n.lhsBatch by decide), dif_pos (show (0 : Fin S32x768.rank) ∈ dot_S32x768_S4096x768_S32x4096_1_1_0_0_n_n.lhsNonContracting by decide)]
  rfl

/-- The left operand's column is the contraction position. -/
theorem lhs_axis_1 (i : S32x4096.Idx) (q : dot_S32x768_S4096x768_S32x4096_1_1_0_0_n_n.contr.Idx) :
    (dot_S32x768_S4096x768_S32x4096_1_1_0_0_n_n.lhsIdx i q 1).val = (q ⟨0, by decide⟩).val :=
  dot_S32x768_S4096x768_S32x4096_1_1_0_0_n_n.lhsIdx_val_of_single rfl i q

/-- The right operand's row is the output's column. -/
theorem rhs_axis_0 (i : S32x4096.Idx) (q : dot_S32x768_S4096x768_S32x4096_1_1_0_0_n_n.contr.Idx) :
    (dot_S32x768_S4096x768_S32x4096_1_1_0_0_n_n.rhsIdx i q 0).val = (i 1).val := by
  unfold DotDims.rhsIdx
  rw [dif_neg (show ¬(0 : Fin S4096x768.rank) ∈ dot_S32x768_S4096x768_S32x4096_1_1_0_0_n_n.rhsBatch by decide), dif_pos (show (0 : Fin S4096x768.rank) ∈ dot_S32x768_S4096x768_S32x4096_1_1_0_0_n_n.rhsNonContracting by decide)]
  rfl

/-- The right operand's column is the contraction position. -/
theorem rhs_axis_1 (i : S32x4096.Idx) (q : dot_S32x768_S4096x768_S32x4096_1_1_0_0_n_n.contr.Idx) :
    (dot_S32x768_S4096x768_S32x4096_1_1_0_0_n_n.rhsIdx i q 1).val = (q ⟨0, by decide⟩).val :=
  dot_S32x768_S4096x768_S32x4096_1_1_0_0_n_n.rhsIdx_val_of_single rfl i q

/-! ## The product at an element -/

/-- Into the zero accumulator, the product at row `p` and column `q` is the sum over the 768 contraction positions of
    the left operand's row `p` times the right operand's row `q`: the contraction index has one axis, of extent 768,
    and the sum is re-indexed through that axis' coordinate. -/
theorem matmul_apply_ix2 (x0 : FVec Ideal S32x768 .f32) (x1 : FVec Ideal S4096x768 .f32) (p : Fin 32) (q : Fin 4096) :
    matmul (F := Ideal) (φ₁ := .f32) (φ₂ := .f32) dot_S32x768_S4096x768_S32x4096_1_1_0_0_n_n none x0 x1 (constant (F := Ideal) S32x4096 .f32 0x00000000#32) (ix2 p q)
      = ∑ k : Fin 768, x0 (ix2 p k) * x1 (ix2 q k) := by
  show FloatOps.matmul (F := Ideal) (φ₁ := .f32) (φ₂ := .f32) dot_S32x768_S4096x768_S32x4096_1_1_0_0_n_n none x0 x1 (constant (F := Ideal) S32x4096 .f32 0x00000000#32) (ix2 p q) = _
  rw [Ideal.matmul_constant_zero_apply, ← Equiv.sum_comp (ValueIdx.contrEquiv1 dot_S32x768_S4096x768_S32x4096_1_1_0_0_n_n 768 rfl rfl).symm]
  refine Finset.sum_congr rfl fun k _ => ?_
  have hk := ValueIdx.contrEquiv1_symm_val dot_S32x768_S4096x768_S32x4096_1_1_0_0_n_n 768 rfl rfl k
  have el : dot_S32x768_S4096x768_S32x4096_1_1_0_0_n_n.lhsIdx (ix2 p q) ((ValueIdx.contrEquiv1 dot_S32x768_S4096x768_S32x4096_1_1_0_0_n_n 768 rfl rfl).symm k) = ix2 p k := funext fun a => Fin.ext (by
    match a with
    | ⟨0, _⟩ => exact lhs_axis_0 _ _
    | ⟨1, _⟩ => exact (lhs_axis_1 _ _).trans hk)
  have er : dot_S32x768_S4096x768_S32x4096_1_1_0_0_n_n.rhsIdx (ix2 p q) ((ValueIdx.contrEquiv1 dot_S32x768_S4096x768_S32x4096_1_1_0_0_n_n 768 rfl rfl).symm k) = ix2 q k := funext fun a => Fin.ext (by
    match a with
    | ⟨0, _⟩ => exact rhs_axis_0 _ _
    | ⟨1, _⟩ => exact (rhs_axis_1 _ _).trans hk)
  rw [el, er]

/-! ## The payload at an element -/

/-- The body's stored value at row `p`, column `q`: the shape casts are to the same shape and change nothing, a row
    broadcast down the rows reads the row at column `q`, a broadcast scalar reads the scalar, and the pointwise
    operations are the extended reals' at that element. -/
theorem pay_apply (x0 : Vec Ideal S32x768 .f32) (x1 : Vec Ideal S4096x768 .f32) (x2 x3 : Vec Ideal S1x4096 .f32) (p : Fin 32) (q : Fin 4096) :
    Cert.KernelIdeal.Gen.k0_pay1 (F := Ideal) x0 x1 x2 x3 (ix2 p q)
      = ((∑ k : Fin 768, x0 (ix2 p k) * x1 (ix2 q k)) + x2 (ix2 (0 : Fin 1) q)) + (Cert.Spec.one - x3 (ix2 (0 : Fin 1) q)) * Cert.Spec.negBig := by
  unfold Cert.KernelIdeal.Gen.k0_pay1
  simp only [shapeCast_self]
  rw [addf_apply, addf_apply, broadcastTo_1b_ab_apply, broadcastTo_1b_ab_apply, mulf_apply, subf_apply, broadcast_apply, broadcast_apply, matmul_apply_ix2]
  rfl

end Cert.KernelIdeal.PayValue

end
-- ==== Proof.HostArrays.lean ====
/-
  What the three arrays written by the host operations hold when the region is entered.

  Before its one region the idealized kernel's main transposes the weight matrix ([768, 100000] to [100000, 768])
  and reshapes the bias and the mask from length 100000 to 1 × 100000. A transposed matrix read at (r, k) is the
  operand at (k, r); a vector viewed as a one-row matrix read at (0, v) is the operand at v, since the row-major
  position of (0, v) is 0 · 100000 + v = v.
-/
import proofs.«124533_g78194174591064_cont_9to1_m_1273_11_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostArrays

open Cert.KernelIdeal Cert.KernelIdeal.Gen Idealize.ShloMosaic Idealize.ShloMosaic.ValueIdx Idealize.ShloMosaic.TcCoe
open Idealize.SL Idealize.SL.Sem Idealize.ShloMosaic.StableHlo

variable {F : FTy → Type} [FloatOps F] (m : (ℓ : Loc nD τ sig) → Buf (Elt F) ℓ)

/-- The transposed weight at (r, k) is the weight as launched at (k, r). -/
theorem V_wt (c : Dev nD) (r : Fin 100000) (k : Fin 768) : (Gen.V m c main_v0 : S100000x768.Idx → Elt F .f32) (ix2 r k) = (m ((c : Thread nD τ).loc main_arg1) : S768x100000.Idx → Elt F .f32) (ix2 k r) := by
  have e : (Gen.V m c main_v0 : S100000x768.Idx → Elt F .f32)
      = transpose S100000x768 [1, 0] (m ((c : Thread nD τ).loc main_arg1) : S768x100000.Idx → Elt F .f32) transposes_S768x100000_S100000x768_1_0 := by
    dsimp only [Gen.V, Gen.hostOps0]; after_results
  rw [e]
  exact transpose_ix2_apply _ _ r k

/-- The bias viewed as one row, at (0, v), is the bias as launched at v. -/
theorem V_bias (c : Dev nD) (v : Fin 100000) : (Gen.V m c main_v1 : S1x100000.Idx → Elt F .f32) (ix2 (0 : Fin 1) v) = (m ((c : Thread nD τ).loc main_arg2) : S100000.Idx → Elt F .f32) (ix1 v) := by
  have e : (Gen.V m c main_v1 : S1x100000.Idx → Elt F .f32)
      = shapeCast S1x100000 (m ((c : Thread nD τ).loc main_arg2) : S100000.Idx → Elt F .f32) shapeCasts_S100000_S1x100000 := by
    dsimp only [Gen.V, Gen.hostOps0]; after_results; rfl
  rw [e]
  exact shapeCast_a_1a_apply _ _ (0 : Fin 1) v

/-- The mask viewed as one row, at (0, v), is the mask as launched at v. -/
theorem V_mask (c : Dev nD) (v : Fin 100000) : (Gen.V m c main_v2 : S1x100000.Idx → Elt F .f32) (ix2 (0 : Fin 1) v) = (m ((c : Thread nD τ).loc main_arg3) : S100000.Idx → Elt F .f32) (ix1 v) := by
  have e : (Gen.V m c main_v2 : S1x100000.Idx → Elt F .f32)
      = shapeCast S1x100000 (m ((c : Thread nD τ).loc main_arg3) : S100000.Idx → Elt F .f32) shapeCasts_S100000_S1x100000 := by
    dsimp only [Gen.V, Gen.hostOps0]; after_results; rfl
  rw [e]
  exact shapeCast_a_1a_apply _ _ (0 : Fin 1) v

end Cert.KernelIdeal.HostArrays

end
-- ==== Proof.KernelIdealRun.lean ====
/-
  The run of the idealized kernel, and what its result array ends holding.

  The grid has 25 points; point `t` handles vocabulary columns `4096·t … 4096·t + 4095`, of which the last point
  has only 1696 inside the array (100000 = 24·4096 + 1696). The transposed weights, the bias row, the mask row and
  the result are therefore staged through blocks whose tail, at the last point, lies past the array's end: a fetch
  fills only the leading columns of the staging buffer and leaves anything in the rest, and a write-back writes only
  the leading columns. Column `q` of the body's result depends on row `q` of the weight block and on column `q`
  of the bias and mask blocks only, so the columns that are written back never see the unnamed tail:
  they hold the filtered logits of the argument arrays at column `4096·t + q` (`cut_pay`). The 25 leading parts
  cover the vocabulary axis, so the result array ends holding the filtered logits everywhere (`final_out`).
-/
import proofs.«124533_g78194174591064_cont_9to1_m_1273_11_alg».proof.Proof.KernelIdealBody
import proofs.«124533_g78194174591064_cont_9to1_m_1273_11_alg».proof.Proof.PayValue
import proofs.«124533_g78194174591064_cont_9to1_m_1273_11_alg».proof.Proof.HostArrays
import Idealize.ShloMosaic.Lib.Pipeline.Frame
import Idealize.ShloMosaic.Lib.Pipeline.Value

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule's arithmetic, decided once over the 25 points -/

/-- Block indices and cut sizes at every point: `hidden` stays at block (0, 0); the weight window moves along its
    rows and the bias, mask and result windows along their columns, all at the point's number; the four moving windows
    are cut alike on the vocabulary axis, to the columns of the block that lie inside the array. -/
theorem sched : ∀ t : Fin cfg0.N,
      win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_1.xsize (grid0.coords t) (0 : Fin 2) = win0_4.xsize (grid0.coords t) (1 : Fin 2) ∧ win0_1.xsize (grid0.coords t) (1 : Fin 2) = 768
    ∧ win0_2.xsize (grid0.coords t) (0 : Fin 2) = 1 ∧ win0_2.xsize (grid0.coords t) (1 : Fin 2) = win0_4.xsize (grid0.coords t) (1 : Fin 2)
    ∧ win0_3.xsize (grid0.coords t) (0 : Fin 2) = 1 ∧ win0_3.xsize (grid0.coords t) (1 : Fin 2) = win0_4.xsize (grid0.coords t) (1 : Fin 2)
    ∧ win0_4.xsize (grid0.coords t) (0 : Fin 2) = 32
    ∧ win0_4.xsize (grid0.coords t) (1 : Fin 2) ≤ 4096
    ∧ t.val * 4096 + win0_4.xsize (grid0.coords t) (1 : Fin 2) ≤ 100000
    ∧ (100000 ≤ t.val * 4096 + 4096 → t.val * 4096 + win0_4.xsize (grid0.coords t) (1 : Fin 2) = 100000)
    ∧ (t.val * 4096 + 4096 ≤ 100000 → win0_4.xsize (grid0.coords t) (1 : Fin 2) = 4096) :=
  (by decide +kernel : ∀ t : Fin grid0.N, _)

/-! ## A filled buffer read inside its filled part -/

/-- Inside the part a fetch fills, a filled buffer holds the fetched block. -/
theorem fill_apply_of_lt {G : Pipeline.Grid} (w : Pipeline.Window sig G) {α : Type} (i : G.Coords) (d : w.block.Idx → α)
    (g : (w.xblock i).Idx → α) (J : w.block.Idx) (h : ∀ a, (J a).val < w.xsize i a) :
    w.fill i d g J = g (fun a => ⟨(J a).val, h a⟩) := by
  unfold Pipeline.Window.fill
  rw [dif_pos ((w.moved_iff i J).mpr h)]

/-! ## The body's payload against the filtered logits, over plain arrays -/

/-- If row `p` of the first block is row `p` of `h`, row `q` of the second is column `v` of `W`, and column `q`
    of the two row blocks is entry `v` of `b` and of `mk`, the payload at `(p, q)` is the filtered logit at `(p, v)`. -/
theorem pay_goal (x0 : Vec Ideal S32x768 .f32) (x1 : Vec Ideal S4096x768 .f32) (x2 x3 : Vec Ideal S1x4096 .f32)
    (h : S32x768.Idx → EReal) (W : S768x100000.Idx → EReal) (b mk : S100000.Idx → EReal)
    (p : Fin 32) (q : Fin 4096) (v : Fin 100000)
    (h0 : ∀ k : Fin 768, x0 (ix2 p k) = h (ix2 p k)) (h1 : ∀ k : Fin 768, x1 (ix2 q k) = W (ix2 k v))
    (h2 : x2 (ix2 (0 : Fin 1) q) = b (ix1 v)) (h3 : x3 (ix2 (0 : Fin 1) q) = mk (ix1 v)) :
    k0_pay1 (F := Ideal) x0 x1 x2 x3 (ix2 p q) = Cert.Spec.filtered h W b mk (ix2 p v) := by
  rw [Cert.KernelIdeal.PayValue.pay_apply, h2, h3, Finset.sum_congr rfl (fun k _ => by rw [h0 k, h1 k])]
  rfl

/-! ## The proof data -/

/-- The filtered logits of the argument arrays on core `c`: what the result array is shown to end holding. -/
def goal (c : Dev nD) : Buf (Elt Ideal) ((c : Thread nD τ).loc main_v3) :=
  Cert.Spec.filtered (m ((c : Thread nD τ).loc main_arg0)) (m ((c : Thread nD τ).loc main_arg1))
    (m ((c : Thread nD τ).loc main_arg2)) (m ((c : Thread nD τ).loc main_arg3))

/-- The word a buffer's unnamed tail is given in the proof data (nothing reads it). -/
abbrev zeroWord : Elt Ideal .f32 := Scalar.ofBits (F := Ideal) .f32 0#32

/-- The proof data of the one pipeline on core `c`: the arrays as the region finds them; after the body at point
    `t` the `hidden` buffer at its block, each cut input buffer at its block on the fetched part (the zero word
    elsewhere: nothing reads it), the result buffer at the filtered logits' block on the part written back. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => zeroWord) (iblk m c 1 t)
    | ⟨2, _⟩ => win0_2.fill (grid0.coords t) (fun _ => zeroWord) (iblk m c 2 t)
    | ⟨3, _⟩ => win0_3.fill (grid0.coords t) (fun _ => zeroWord) (iblk m c 3 t)
    | ⟨4, _⟩ => win0_4.fill (grid0.coords t) (fun _ => zeroWord) ((win0_4.blk t).view.read (Elt Ideal) (goal m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem cut_after1 (c : Dev nD) (t : Fin cfg0.N) : win0_1.cut (grid0.coords t) ((dats m 0 c).after 1 t) = iblk m c 1 t := by
  dsimp only [dats]; exact win0_1.cut_fill _ _ _
theorem cut_after2 (c : Dev nD) (t : Fin cfg0.N) : win0_2.cut (grid0.coords t) ((dats m 0 c).after 2 t) = iblk m c 2 t := by
  dsimp only [dats]; exact win0_2.cut_fill _ _ _
theorem cut_after3 (c : Dev nD) (t : Fin cfg0.N) : win0_3.cut (grid0.coords t) ((dats m 0 c).after 3 t) = iblk m c 3 t := by
  dsimp only [dats]; exact win0_3.cut_fill _ _ _
theorem cut_after4 (c : Dev nD) (t : Fin cfg0.N) :
    win0_4.cut (grid0.coords t) ((dats m 0 c).after 4 t) = (win0_4.blk t).view.read (Elt Ideal) (goal m c) := by
  dsimp only [dats]; exact win0_4.cut_fill _ _ _

/-! ## What the body finds -/

theorem before0_0 (c : Dev nD) (t : Fin cfg0.N) (d) : (dats m 0 c).before 0 t d = iblk m c 0 t :=
  before0_0_of m (dats m 0 c) (A_eq m c 0) (after0_0 m c) t d

/-- A cut input just fetched: its block on the fetched part, `d` elsewhere. -/
theorem before0_1 (c : Dev nD) (t : Fin cfg0.N) (d) :
    (dats m 0 c).before 1 t d = win0_1.fill (grid0.coords t) d (iblk m c 1 t) := by
  rw [(dats m 0 c).before_fetched 1 t (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  rw [(dats m 0 c).before_fetched 2 t (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  rw [(dats m 0 c).before_fetched 3 t (fetch0_3 t)]; unfold Dat.fetched Dat.blockOf iblk; rw [A_eq]
/-- The result buffer, written back at every point, holds anything when the body starts. -/
theorem before0_4 (c : Dev nD) (t : Fin cfg0.N) (d) : (dats m 0 c).before 4 t d = d :=
  (dats m 0 c).before_out_reset 4 rfl t
    (if h0 : t.val = 0 then .inl h0 else .inr ⟨h0, flush0_4 _⟩) d

/-! ## The columns written back hold the filtered logits -/

theorem cut_pay (c : Dev nD) (t : Fin cfg0.N) (d1 : Vec Ideal S4096x768 .f32) (d2 d3 : Vec Ideal S1x4096 .f32) :
    win0_4.cut (grid0.coords t) (k0_pay1 (F := Ideal) (iblk m c 0 t) (win0_1.fill (grid0.coords t) d1 (iblk m c 1 t))
        (win0_2.fill (grid0.coords t) d2 (iblk m c 2 t)) (win0_3.fill (grid0.coords t) d3 (iblk m c 3 t)))
      = (win0_4.blk t).view.read (Elt Ideal) (goal m c) := by
  obtain ⟨i00, i01, i10, i11, i20, i21, i30, i31, i40, i41, x10, x11, x20, x21, x30, x31, x40, x41le, xin, -, -⟩ := sched t
  funext j
  have hj0 : (j 0).val < win0_4.xsize (grid0.coords t) (0 : Fin 2) := (j 0).isLt
  have hj1 : (j 1).val < win0_4.xsize (grid0.coords t) (1 : Fin 2) := (j 1).isLt
  have hp : (j 0).val < 32 := by omega
  have hq : (j 1).val < 4096 := by omega
  have hv : t.val * 4096 + (j 1).val < 100000 := by omega
  show k0_pay1 (F := Ideal) _ _ _ _ (win0_4.xinj (grid0.coords t) j) = goal m c ((win0_4.blk t).view.emb j)
  have e1 : win0_4.xinj (grid0.coords t) j = ix2 (⟨(j 0).val, hp⟩ : Fin 32) (⟨(j 1).val, hq⟩ : Fin 4096) :=
    funext fun a => Fin.ext (by match a with | ⟨0, _⟩ => rfl | ⟨1, _⟩ => rfl)
  have e2 : (win0_4.blk t).view.emb j = ix2 (⟨(j 0).val, hp⟩ : Fin 32) (⟨t.val * 4096 + (j 1).val, hv⟩ : Fin 100000) :=
    funext fun a => Fin.ext (by
      match a with
      | ⟨0, _⟩ => show win0_4.index t (0 : Fin 2) * 32 + 1 * (j 0).val = (j 0).val; omega
      | ⟨1, _⟩ => show win0_4.index t (1 : Fin 2) * 4096 + 1 * (j 1).val = t.val * 4096 + (j 1).val; omega)
  rw [e1, e2]
  refine pay_goal _ _ _ _ _ _ _ _ _ _ _ (fun k => ?_) (fun k => ?_) ?_ ?_
  · -- the `hidden` block is the whole array
    show V m c main_arg0 ((win0_0.blk t).view.emb (ix2 (⟨(j 0).val, hp⟩ : Fin 32) k)) = _
    rw [V_main_arg0]
    refine congrArg _ (funext fun a => Fin.ext ?_)
    match a with
    | ⟨0, _⟩ => show win0_0.index t (0 : Fin 2) * 32 + 1 * (j 0).val = (j 0).val; omega
    | ⟨1, _⟩ => show win0_0.index t (1 : Fin 2) * 768 + 1 * k.val = k.val; omega
  · -- row `q` of the weight block lies in the fetched part: it is row `4096 t + q` of the transposed weights
    rw [fill_apply_of_lt win0_1 (grid0.coords t) d1 (iblk m c 1 t) (ix2 (⟨(j 1).val, hq⟩ : Fin 4096) k) (fun a => by
      match a with
      | ⟨0, _⟩ => show (j 1).val < win0_1.xsize (grid0.coords t) (0 : Fin 2); omega
      | ⟨1, _⟩ => show k.val < win0_1.xsize (grid0.coords t) (1 : Fin 2); have := k.isLt; omega)]
    show V m c main_v0 ((win0_1.blk t).view.emb _) = _
    refine Eq.trans (congrArg _ (funext fun a => Fin.ext ?_)) (Cert.KernelIdeal.HostArrays.V_wt m c ⟨t.val * 4096 + (j 1).val, hv⟩ k)
    match a with
    | ⟨0, _⟩ => show win0_1.index t (0 : Fin 2) * 4096 + 1 * (j 1).val = t.val * 4096 + (j 1).val; omega
    | ⟨1, _⟩ => show win0_1.index t (1 : Fin 2) * 768 + 1 * k.val = k.val; omega
  · rw [fill_apply_of_lt win0_2 (grid0.coords t) d2 (iblk m c 2 t) (ix2 (0 : Fin 1) (⟨(j 1).val, hq⟩ : Fin 4096)) (fun a => by
      match a with
      | ⟨0, _⟩ => show 0 < win0_2.xsize (grid0.coords t) (0 : Fin 2); omega
      | ⟨1, _⟩ => show (j 1).val < win0_2.xsize (grid0.coords t) (1 : Fin 2); omega)]
    show V m c main_v1 ((win0_2.blk t).view.emb _) = _
    refine Eq.trans (congrArg _ (funext fun a => Fin.ext ?_)) (Cert.KernelIdeal.HostArrays.V_bias m c ⟨t.val * 4096 + (j 1).val, hv⟩)
    match a with
    | ⟨0, _⟩ => show win0_2.index t (0 : Fin 2) * 1 + 1 * 0 = 0; omega
    | ⟨1, _⟩ => show win0_2.index t (1 : Fin 2) * 4096 + 1 * (j 1).val = t.val * 4096 + (j 1).val; omega
  · rw [fill_apply_of_lt win0_3 (grid0.coords t) d3 (iblk m c 3 t) (ix2 (0 : Fin 1) (⟨(j 1).val, hq⟩ : Fin 4096)) (fun a => by
      match a with
      | ⟨0, _⟩ => show 0 < win0_3.xsize (grid0.coords t) (0 : Fin 2); omega
      | ⟨1, _⟩ => show (j 1).val < win0_3.xsize (grid0.coords t) (1 : Fin 2); omega)]
    show V m c main_v2 ((win0_3.blk t).view.emb _) = _
    refine Eq.trans (congrArg _ (funext fun a => Fin.ext ?_)) (Cert.KernelIdeal.HostArrays.V_mask m c ⟨t.val * 4096 + (j 1).val, hv⟩)
    match a with
    | ⟨0, _⟩ => show win0_3.index t (0 : Fin 2) * 1 + 1 * 0 = 0; omega
    | ⟨1, _⟩ => show win0_3.index t (1 : Fin 2) * 4096 + 1 * (j 1).val = t.val * 4096 + (j 1).val; omega

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the `hidden` buffer at its block; each cut buffer stated on the part its transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t)))))

/-- The body at any point: it finds `hidden`'s block, the three cut inputs fetched over anything, and the result
    buffer at anything; it leaves the inputs as found and the result at the payload, whose written-back columns
    are the filtered logits' (`cut_pay`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, cut_after1, cut_after2, cut_after3, cut_after4]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (sound_kernel (F := Ideal) c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  iexists (k0_pay1 (F := Ideal) (iblk m c 0 t) (win0_1.fill (grid0.coords t) d1 (iblk m c 1 t))
    (win0_2.fill (grid0.coords t) d2 (iblk m c 2 t)) (win0_3.fill (grid0.coords t) d3 (iblk m c 3 t)))
  rw [← cut_pay m c t d1 d2 d3, win0_4.fill_cut, ← outBuf_eq]
  iexact H4

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the idealized kernel's main terminates; the pipeline's arrays end at what the
    library computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the idealized kernel: it runs and leaves its four arguments as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result array after the run -/

/-- An index of the result array is in point `t`'s written-back part iff its row is any and its column is one of
    the block's columns inside the array. -/
theorem mem_blk4 (t : Fin cfg0.N) (i : S32x100000.Idx) :
    i ∈ (win0_4.blk t).view.set ↔ ∀ a : Fin 2, win0_4.index t a * S32x4096.size a ≤ (i a).val
      ∧ (i a).val < win0_4.index t a * S32x4096.size a + win0_4.xsize (grid0.coords t) a := by
  show i ∈ ((View.whole main_v3).slice (win0_4.rect t)).set ↔ _
  rw [View.set_slice_whole, Rect.mem_set_unit]
  exact Iff.rfl

/-- Every column lies in the written-back part of the point that is its quotient by 4096. -/
theorem cover4 (i : S32x100000.Idx) : ∃ t : Fin cfg0.N, (cfg0.win 4).flush t = true ∧ i ∈ ((cfg0.win 4).blk t).view.set := by
  have hi0 : (i 0).val < 32 := (i 0).isLt
  have hi1 : (i 1).val < 100000 := (i 1).isLt
  have hN : cfg0.N = 25 := N_0
  have ht : (i 1).val / 4096 < cfg0.N := by rw [hN]; omega
  obtain ⟨-, -, -, -, -, -, -, -, i40, i41, -, -, -, -, -, -, x40, x41le, xin, xlast, xfull⟩ := sched ⟨(i 1).val / 4096, ht⟩
  refine ⟨⟨(i 1).val / 4096, ht⟩, flush0_4 _, (mem_blk4 ⟨(i 1).val / 4096, ht⟩ i).mpr fun a => ?_⟩
  have i41' : win0_4.index ⟨(i 1).val / 4096, ht⟩ (1 : Fin 2) = (i 1).val / 4096 := i41
  have xlast' : 100000 ≤ (i 1).val / 4096 * 4096 + 4096 →
      (i 1).val / 4096 * 4096 + win0_4.xsize (grid0.coords ⟨(i 1).val / 4096, ht⟩) (1 : Fin 2) = 100000 := xlast
  have xfull' : (i 1).val / 4096 * 4096 + 4096 ≤ 100000 →
      win0_4.xsize (grid0.coords ⟨(i 1).val / 4096, ht⟩) (1 : Fin 2) = 4096 := xfull
  match a with
  | ⟨0, _⟩ =>
    show win0_4.index ⟨(i 1).val / 4096, ht⟩ (0 : Fin 2) * 32 ≤ (i 0).val
      ∧ (i 0).val < win0_4.index ⟨(i 1).val / 4096, ht⟩ (0 : Fin 2) * 32 + win0_4.xsize (grid0.coords ⟨(i 1).val / 4096, ht⟩) (0 : Fin 2)
    rw [i40, x40]; omega
  | ⟨1, _⟩ =>
    show win0_4.index ⟨(i 1).val / 4096, ht⟩ (1 : Fin 2) * 4096 ≤ (i 1).val
      ∧ (i 1).val < win0_4.index ⟨(i 1).val / 4096, ht⟩ (1 : Fin 2) * 4096 + win0_4.xsize (grid0.coords ⟨(i 1).val / 4096, ht⟩) (1 : Fin 2)
    rw [i41']; omega

/-- THE RESULT ARRAY after the run: the filtered logits of the argument arrays. -/
theorem final_out (c : Dev nD) : (dats m 0 c).arrAt 4 cfg0.N = goal m c :=
  (dats m 0 c).arrAt_eq_of_cover 4 (goal m c) (fun t _ => cut_after4 m c t) (cover4)

/-- The run, read: the result array at the filtered logits, the arguments unchanged. -/
theorem run : θ_run defs (onTc (τ := τ) (main (F := Ideal))) ⟨m, fun _ => 0, ρ⟩ fun r => ∀ c : Dev nD,
      r.2.mem ((c.tc : Thread nD τ).loc main_v3) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final_out m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Run

end
-- ==== Proof.RefValue.lean ====
/-
  The reference program computes the shared specification.

  Read one result element at a time, the reference is
      ((∑ k, hidden r k · W k v) + b v) + (mask v · 0 + (1 − mask v) · c):
  the two broadcasts of the bias and of the masking row only forget the batch coordinate, the reshape of the
  mask from length 100000 to 1 × 100000 sends (0, v) to v, and the broadcasts of the scalar constants read the
  one scalar. On the extended reals `mask v · 0 + y = y`, so what is left is `Cert.Spec.filtered`.
-/
import proofs.«124533_g78194174591064_cont_9to1_m_1273_11_alg».proof.Proof.Gen.ReferenceIdeal.Read
import proofs.«124533_g78194174591064_cont_9to1_m_1273_11_alg».proof.Proof.Spec
import Idealize.ShloMosaic.PureOps.Ideal
import Idealize.ShloMosaic.Lib.ValueIdx

noncomputable section

namespace Cert.RefValue

open Idealize.ShloMosaic Idealize.ShloMosaic.ValueIdx Cert.ReferenceIdeal Cert.ReferenceIdeal.Read

/-- The left operand of the product is read at row `i 0`, contraction position `k`. -/
theorem lidx_eq (i : S32x100000.Idx) (k : Fin 768) :
    lidx_main_v0 i k = (ix2 (i 0) k : S32x768.Idx) :=
  funext fun a => Fin.ext (by match a with | ⟨0, _⟩ => rfl | ⟨1, _⟩ => rfl)

/-- The right operand of the product is read at contraction position `k`, column `i 1`. -/
theorem ridx_eq (i : S32x100000.Idx) (k : Fin 768) :
    ridx_main_v0 i k = (ix2 k (i 1) : S768x100000.Idx) :=
  funext fun a => Fin.ext (by match a with | ⟨0, _⟩ => rfl | ⟨1, _⟩ => rfl)

/-- The bias, broadcast first to one row and then to all 32 rows, is read at column `i 1`. -/
theorem bidx_eq (i : S32x100000.Idx) :
    idx_main_v1 (idx_main_v2 i) = (ix1 (i 1) : S100000.Idx) :=
  funext fun a => Fin.ext (by match a with | ⟨0, _⟩ => rfl)

/-- The mask, reshaped to one row and broadcast to all 32 rows, is read at `0 · 100000 + i 1 = i 1`. -/
theorem midx_eq (i : S32x100000.Idx) :
    idx_main_v4 (idx_main_v12 i) = (ix1 (i 1) : S100000.Idx) :=
  funext fun a => Fin.ext (by
    match a with
    | ⟨0, _⟩ => show 0 * 100000 + (i 1).val = (i 1).val; omega)

/-- The reference's result is the filtered logits: its element at `i` is the product row plus the bias plus
    `mask · 0 + (1 − mask) · c`, and the `mask · 0` term vanishes on the extended reals. -/
theorem ref_eq (x0 : (⟨Cert.ReferenceIdeal.S32x768, .f32⟩ : BufTy).Contents (Elt Ideal)) (x1 : (⟨Cert.ReferenceIdeal.S768x100000, .f32⟩ : BufTy).Contents (Elt Ideal)) (x2 x3 : (⟨Cert.ReferenceIdeal.S100000, .f32⟩ : BufTy).Contents (Elt Ideal)) :
    Cert.ReferenceIdeal.Read.val_main_v13 (F := Ideal) x0 x1 x2 x3 = Cert.Spec.filtered x0 x1 x2 x3 := by
  funext i
  rw [val_main_v13_apply, val_main_v3_apply, val_main_v0_apply, val_main_v2_apply, val_main_v1_apply,
    val_main_v12_apply, val_main_v11_apply, val_main_v6_apply, val_main_v10_apply, val_main_v8_apply,
    val_main_v4_apply, val_main_v5_apply, val_main_cst_apply, val_main_v7_apply, val_main_cst_0_apply,
    val_main_v9_apply, val_main_cst_1_apply]
  simp only [lidx_eq, ridx_eq, bidx_eq, midx_eq, Ideal.addf_def, Ideal.subf_def, Ideal.mulf_def, Ideal.ofBits_def,
    Cert.Spec.mask_term]
  rfl

end Cert.RefValue

end
-- ==== Proof.lean ====
/-
  The certificate of the filtered-logits kernel against its reference.

  Both programs compute, for a batch row `r` and a vocabulary column `v`,
      (∑ k, hidden r k · W k v) + b v + (1 − mask v) · c
  (`Cert.Spec.filtered`). The kernel tiles the 100000 columns in 25 blocks of 4096 (the last one only 1696 wide
  inside the array), multiplies `hidden` by the transposed weight block on the matrix unit and adds the bias and the
  masking term in the same pass; the reference multiplies by the whole matrix and adds `mask · 0 + (1 − mask) · c`.
  Over the extended reals the two agree with no use of the precondition: a sum does not depend on its tiling, and
  `x · 0 + y = y` for every `x`.

  The frames: each program runs to the end and leaves its arguments unchanged — the word-level kernel with what its
  staging buffers hold left unstated (`Cert.Kernel.Run.frame`), the idealized kernel from the run that also names the
  result (`Cert.KernelIdeal.Run.run`), the reference from its run read operation by operation. The idealization
  rewrote nothing, so there is nothing to preserve. The value claim pairs the kernel's run (result array = filtered
  logits, block by block and then by the blocks' cover of the array) with the reference's (its last stage read at an
  index is the same function, `Cert.RefValue.ref_eq`).
-/
import proofs.«124533_g78194174591064_cont_9to1_m_1273_11_alg».proof.Defs
import proofs.«124533_g78194174591064_cont_9to1_m_1273_11_alg».proof.Proof.Gen.Kernel
import proofs.«124533_g78194174591064_cont_9to1_m_1273_11_alg».proof.Proof.Gen.KernelIdeal
import proofs.«124533_g78194174591064_cont_9to1_m_1273_11_alg».proof.Proof.Gen.ReferenceIdeal
import proofs.«124533_g78194174591064_cont_9to1_m_1273_11_alg».proof.Proof.Gen.ReferenceIdeal.Run
import proofs.«124533_g78194174591064_cont_9to1_m_1273_11_alg».proof.Proof.Gen.ReferenceIdeal.Read
import proofs.«124533_g78194174591064_cont_9to1_m_1273_11_alg».proof.Proof.Gen.Pre_finite_inputs
import proofs.«124533_g78194174591064_cont_9to1_m_1273_11_alg».proof.Proof.KernelFrame
import proofs.«124533_g78194174591064_cont_9to1_m_1273_11_alg».proof.Proof.KernelIdealRun
import proofs.«124533_g78194174591064_cont_9to1_m_1273_11_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Run.frame (F := Bits) m ρ

/-- The idealized kernel runs and keeps its arguments. -/
theorem frame_kernel_ideal : Cert.frame_KernelIdeal := fun m ρ _ => Cert.KernelIdeal.Run.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the four arguments both programs end with the filtered logits of those arguments. -/
theorem algebraic : Cert.algebraic_KernelIdeal_ReferenceIdeal := by
  intro m ρ m' ρ' _ hagree
  refine ⟨fun c => Cert.KernelIdeal.Run.goal m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.RefValue.ref_eq, (hagree c).1, (hagree c).2.1, (hagree c).2.2.1,
    (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
